-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S600000 32) (main_arg2 : IVec S600000 32) (main_arg3 : FVec F S128x128 .f32) (main_arg4 : FVec F S128 .f32) (main_arg5 : FVec F S128x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S2000x128 : Shape := ⟨2, ![2000, 128]⟩
abbrev S2000x1 : Shape := ⟨2, ![2000, 1]⟩
abbrev S1x128 : Shape := ⟨2, ![1, 128]⟩

abbrev nBuf : Space → Nat
  | .hbm => 90
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .f32⟩
  | .hbm, ⟨8, _⟩ => ⟨S600000, .f32⟩
  | .hbm, ⟨9, _⟩ => ⟨S_, .f32⟩
  | .hbm, ⟨10, _⟩ => ⟨S50000, .f32⟩
  | .hbm, ⟨11, _⟩ => ⟨S_, .i32⟩
  | .hbm, ⟨12, _⟩ => ⟨S600000, .i32⟩
  | .hbm, ⟨13, _⟩ => ⟨S600000, .i1⟩
  | .hbm, ⟨14, _⟩ => ⟨S_, .i32⟩
  | .hbm, ⟨15, _⟩ => ⟨S600000, .i32⟩
  | .hbm, ⟨16, _⟩ => ⟨S600000, .i32⟩
  | .hbm, ⟨17, _⟩ => ⟨S600000, .i32⟩
  | .hbm, ⟨18, _⟩ => ⟨S600000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S_, .i32⟩
  | .hbm, ⟨23, _⟩ => ⟨S600000, .i32⟩
  | .hbm, ⟨24, _⟩ => ⟨S600000, .i1⟩
  | .hbm, ⟨25, _⟩ => ⟨S_, .i32⟩
  | .hbm, ⟨26, _⟩ => ⟨S600000, .i32⟩
  | .hbm, ⟨27, _⟩ => ⟨S600000, .i32⟩
  | .hbm, ⟨28, _⟩ => ⟨S600000, .i32⟩
  | .hbm, ⟨29, _⟩ => ⟨S600000x1, .i32⟩
  | .hbm, ⟨30, _⟩ => ⟨S50000, .f32⟩
  | .hbm, ⟨31, _⟩ => ⟨S_, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000, .f32⟩
  | .hbm, ⟨36, _⟩ => ⟨S_, .f32⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S50000, .f32⟩
  | .hbm, ⟨41, _⟩ => ⟨S50000x1, .f32⟩
  | .hbm, ⟨42, _⟩ => ⟨S50000x1, .f32⟩
  | .hbm, ⟨43, _⟩ => ⟨S50000x128, .f32⟩
  | .hbm, ⟨44, _⟩ => ⟨S50000x128, .f32⟩
  | .hbm, ⟨45, _⟩ => ⟨S_, .i32⟩
  | .hbm, ⟨46, _⟩ => ⟨S600000, .i32⟩
  | .hbm, ⟨47, _⟩ => ⟨S600000, .i1⟩
  | .hbm, ⟨48, _⟩ => ⟨S_, .i32⟩
  | .hbm, ⟨49, _⟩ => ⟨S600000, .i32⟩
  | .hbm, ⟨50, _⟩ => ⟨S600000, .i32⟩
  | .hbm, ⟨51, _⟩ => ⟨S600000, .i32⟩
  | .hbm, ⟨52, _⟩ => ⟨S600000x1, .i32⟩
  | .hbm, ⟨53, _⟩ => ⟨S600000x128, .f32⟩
  | .hbm, ⟨54, _⟩ => ⟨S_, .f32⟩
  | .hbm, ⟨55, _⟩ => ⟨S50000x128, .f32⟩
  | .hbm, ⟨56, _⟩ => ⟨S_, .i32⟩
  | .hbm, ⟨57, _⟩ => ⟨S600000, .i32⟩
  | .hbm, ⟨58, _⟩ => ⟨S600000, .i1⟩
  | .hbm, ⟨59, _⟩ => ⟨S_, .i32⟩
  | .hbm, ⟨60, _⟩ => ⟨S600000, .i32⟩
  | .hbm, ⟨61, _⟩ => ⟨S600000, .i32⟩
  | .hbm, ⟨62, _⟩ => ⟨S600000, .i32⟩
  | .hbm, ⟨63, _⟩ => ⟨S600000x1, .i32⟩
  | .hbm, ⟨64, _⟩ => ⟨S50000x128, .f32⟩
  | .hbm, ⟨65, _⟩ => ⟨S50000x128, .f32⟩
  | .hbm, ⟨66, _⟩ => ⟨S50000x1, .f32⟩
  | .hbm, ⟨67, _⟩ => ⟨S50000x128, .f32⟩
  | .hbm, ⟨68, _⟩ => ⟨S50000x128, .f32⟩
  | .hbm, ⟨69, _⟩ => ⟨S_, .i32⟩
  | .hbm, ⟨70, _⟩ => ⟨S600000, .i32⟩
  | .hbm, ⟨71, _⟩ => ⟨S600000, .i1⟩
  | .hbm, ⟨72, _⟩ => ⟨S_, .i32⟩
  | .hbm, ⟨73, _⟩ => ⟨S600000, .i32⟩
  | .hbm, ⟨74, _⟩ => ⟨S600000, .i32⟩
  | .hbm, ⟨75, _⟩ => ⟨S600000, .i32⟩
  | .hbm, ⟨76, _⟩ => ⟨S600000x1, .i32⟩
  | .hbm, ⟨77, _⟩ => ⟨S600000x128, .f32⟩
  | .hbm, ⟨78, _⟩ => ⟨S_, .f32⟩
  | .hbm, ⟨79, _⟩ => ⟨S50000x128, .f32⟩
  | .hbm, ⟨80, _⟩ => ⟨S_, .i32⟩
  | .hbm, ⟨81, _⟩ => ⟨S600000, .i32⟩
  | .hbm, ⟨82, _⟩ => ⟨S600000, .i1⟩
  | .hbm, ⟨83, _⟩ => ⟨S_, .i32⟩
  | .hbm, ⟨84, _⟩ => ⟨S600000, .i32⟩
  | .hbm, ⟨85, _⟩ => ⟨S600000, .i32⟩
  | .hbm, ⟨86, _⟩ => ⟨S600000, .i32⟩
  | .hbm, ⟨87, _⟩ => ⟨S600000x1, .i32⟩
  | .hbm, ⟨88, _⟩ => ⟨S50000x128, .f32⟩
  | .hbm, ⟨89, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S128x128, .f32⟩
  | .local _ .vmem, ⟨5, _⟩ => ⟨S128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x1, .f32⟩
  | .local _ .vmem, ⟨13, _⟩ => ⟨S2000x1, .f32⟩
  | .local _ .vmem, ⟨14, _⟩ => ⟨S128x128, .f32⟩
  | .local _ .vmem, ⟨15, _⟩ => ⟨S128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_c_3 : Ref sig .tc := ⟨.hbm, 22, rfl⟩
abbrev main_v10 : Ref sig .tc := ⟨.hbm, 23, rfl⟩
abbrev main_v11 : Ref sig .tc := ⟨.hbm, 24, rfl⟩
abbrev main_c_4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_call0_v0 : Ref sig .tc := ⟨.hbm, 32, rfl⟩
abbrev main_call0_v1 : Ref sig .tc := ⟨.hbm, 33, rfl⟩
abbrev main_v17 : Ref sig .tc := ⟨.hbm, 34, rfl⟩
abbrev main_v18 : Ref sig .tc := ⟨.hbm, 35, rfl⟩
abbrev main_cst_6 : Ref sig .tc := ⟨.hbm, 36, rfl⟩
abbrev main_call1_v0 : Ref sig .tc := ⟨.hbm, 37, rfl⟩
abbrev main_call1_v1 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_7 : Ref sig .tc := ⟨.hbm, 45, rfl⟩
abbrev main_v25 : Ref sig .tc := ⟨.hbm, 46, rfl⟩
abbrev main_v26 : Ref sig .tc := ⟨.hbm, 47, rfl⟩
abbrev main_c_8 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_9 : Ref sig .tc := ⟨.hbm, 54, rfl⟩
abbrev main_v32 : Ref sig .tc := ⟨.hbm, 55, rfl⟩
abbrev main_c_10 : Ref sig .tc := ⟨.hbm, 56, rfl⟩
abbrev main_v33 : Ref sig .tc := ⟨.hbm, 57, rfl⟩
abbrev main_v34 : Ref sig .tc := ⟨.hbm, 58, rfl⟩
abbrev main_c_11 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_12 : Ref sig .tc := ⟨.hbm, 69, rfl⟩
abbrev main_v44 : Ref sig .tc := ⟨.hbm, 70, rfl⟩
abbrev main_v45 : Ref sig .tc := ⟨.hbm, 71, rfl⟩
abbrev main_c_13 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_14 : Ref sig .tc := ⟨.hbm, 78, rfl⟩
abbrev main_v51 : Ref sig .tc := ⟨.hbm, 79, rfl⟩
abbrev main_c_15 : Ref sig .tc := ⟨.hbm, 80, rfl⟩
abbrev main_v52 : Ref sig .tc := ⟨.hbm, 81, rfl⟩
abbrev main_v53 : Ref sig .tc := ⟨.hbm, 82, rfl⟩
abbrev main_c_16 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v39) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S2000x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v40) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v58) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg0) S2000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v59) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x128 : Shape := ⟨2, ![1, 128]⟩

abbrev nBuf : Space → Nat
  | .hbm => 110
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .f32⟩
  | .hbm, ⟨8, _⟩ => ⟨S600000, .f32⟩
  | .hbm, ⟨9, _⟩ => ⟨S_, .f32⟩
  | .hbm, ⟨10, _⟩ => ⟨S50000, .f32⟩
  | .hbm, ⟨11, _⟩ => ⟨S_, .i32⟩
  | .hbm, ⟨12, _⟩ => ⟨S600000, .i32⟩
  | .hbm, ⟨13, _⟩ => ⟨S600000, .i1⟩
  | .hbm, ⟨14, _⟩ => ⟨S_, .i32⟩
  | .hbm, ⟨15, _⟩ => ⟨S600000, .i32⟩
  | .hbm, ⟨16, _⟩ => ⟨S600000, .i32⟩
  | .hbm, ⟨17, _⟩ => ⟨S600000, .i32⟩
  | .hbm, ⟨18, _⟩ => ⟨S600000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S_, .i32⟩
  | .hbm, ⟨23, _⟩ => ⟨S600000, .i32⟩
  | .hbm, ⟨24, _⟩ => ⟨S600000, .i1⟩
  | .hbm, ⟨25, _⟩ => ⟨S_, .i32⟩
  | .hbm, ⟨26, _⟩ => ⟨S600000, .i32⟩
  | .hbm, ⟨27, _⟩ => ⟨S600000, .i32⟩
  | .hbm, ⟨28, _⟩ => ⟨S600000, .i32⟩
  | .hbm, ⟨29, _⟩ => ⟨S600000x1, .i32⟩
  | .hbm, ⟨30, _⟩ => ⟨S50000, .f32⟩
  | .hbm, ⟨31, _⟩ => ⟨S_, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000, .f32⟩
  | .hbm, ⟨36, _⟩ => ⟨S_, .f32⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S50000, .f32⟩
  | .hbm, ⟨41, _⟩ => ⟨S50000x1, .f32⟩
  | .hbm, ⟨42, _⟩ => ⟨S50000x128, .f32⟩
  | .hbm, ⟨43, _⟩ => ⟨S50000x128, .f32⟩
  | .hbm, ⟨44, _⟩ => ⟨S_, .i32⟩
  | .hbm, ⟨45, _⟩ => ⟨S600000, .i32⟩
  | .hbm, ⟨46, _⟩ => ⟨S600000, .i1⟩
  | .hbm, ⟨47, _⟩ => ⟨S_, .i32⟩
  | .hbm, ⟨48, _⟩ => ⟨S600000, .i32⟩
  | .hbm, ⟨49, _⟩ => ⟨S600000, .i32⟩
  | .hbm, ⟨50, _⟩ => ⟨S600000, .i32⟩
  | .hbm, ⟨51, _⟩ => ⟨S600000x1, .i32⟩
  | .hbm, ⟨52, _⟩ => ⟨S600000x128, .f32⟩
  | .hbm, ⟨53, _⟩ => ⟨S_, .f32⟩
  | .hbm, ⟨54, _⟩ => ⟨S50000x128, .f32⟩
  | .hbm, ⟨55, _⟩ => ⟨S_, .i32⟩
  | .hbm, ⟨56, _⟩ => ⟨S600000, .i32⟩
  | .hbm, ⟨57, _⟩ => ⟨S600000, .i1⟩
  | .hbm, ⟨58, _⟩ => ⟨S_, .i32⟩
  | .hbm, ⟨59, _⟩ => ⟨S600000, .i32⟩
  | .hbm, ⟨60, _⟩ => ⟨S600000, .i32⟩
  | .hbm, ⟨61, _⟩ => ⟨S600000, .i32⟩
  | .hbm, ⟨62, _⟩ => ⟨S600000x1, .i32⟩
  | .hbm, ⟨63, _⟩ => ⟨S50000x128, .f32⟩
  | .hbm, ⟨64, _⟩ => ⟨S50000x1, .f32⟩
  | .hbm, ⟨65, _⟩ => ⟨S50000x128, .f32⟩
  | .hbm, ⟨66, _⟩ => ⟨S50000x128, .f32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S_, .f32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S50000x1, .f32⟩
  | .hbm, ⟨76, _⟩ => ⟨S50000x128, .f32⟩
  | .hbm, ⟨77, _⟩ => ⟨S50000x128, .f32⟩
  | .hbm, ⟨78, _⟩ => ⟨S_, .i32⟩
  | .hbm, ⟨79, _⟩ => ⟨S600000, .i32⟩
  | .hbm, ⟨80, _⟩ => ⟨S600000, .i1⟩
  | .hbm, ⟨81, _⟩ => ⟨S_, .i32⟩
  | .hbm, ⟨82, _⟩ => ⟨S600000, .i32⟩
  | .hbm, ⟨83, _⟩ => ⟨S600000, .i32⟩
  | .hbm, ⟨84, _⟩ => ⟨S600000, .i32⟩
  | .hbm, ⟨85, _⟩ => ⟨S600000x1, .i32⟩
  | .hbm, ⟨86, _⟩ => ⟨S600000x128, .f32⟩
  | .hbm, ⟨87, _⟩ => ⟨S_, .f32⟩
  | .hbm, ⟨88, _⟩ => ⟨S50000x128, .f32⟩
  | .hbm, ⟨89, _⟩ => ⟨S_, .i32⟩
  | .hbm, ⟨90, _⟩ => ⟨S600000, .i32⟩
  | .hbm, ⟨91, _⟩ => ⟨S600000, .i1⟩
  | .hbm, ⟨92, _⟩ => ⟨S_, .i32⟩
  | .hbm, ⟨93, _⟩ => ⟨S600000, .i32⟩
  | .hbm, ⟨94, _⟩ => ⟨S600000, .i32⟩
  | .hbm, ⟨95, _⟩ => ⟨S600000, .i32⟩
  | .hbm, ⟨96, _⟩ => ⟨S600000x1, .i32⟩
  | .hbm, ⟨97, _⟩ => ⟨S50000x128, .f32⟩
  | .hbm, ⟨98, _⟩ => ⟨S50000x1, .f32⟩
  | .hbm, ⟨99, _⟩ => ⟨S50000x128, .f32⟩
  | .hbm, ⟨100, _⟩ => ⟨S50000x128, .f32⟩
  | .hbm, ⟨101, _⟩ => ⟨S50000x128, .f32⟩
  | .hbm, ⟨102, _⟩ => ⟨S1x128, .f32⟩
  | .hbm, ⟨103, _⟩ => ⟨S50000x128, .f32⟩
  | .hbm, ⟨104, _⟩ => ⟨S50000x128, .f32⟩
  | .hbm, ⟨105, _⟩ => ⟨S_, .f32⟩
  | .hbm, ⟨106, _⟩ => ⟨S50000x128, .f32⟩
  | .hbm, ⟨107, _⟩ => ⟨S50000x128, .f32⟩
  | .hbm, ⟨108, _⟩ => ⟨S50000x128, .f32⟩
  | .hbm, ⟨109, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_c_3 : Ref sig .tc := ⟨.hbm, 22, rfl⟩
abbrev main_v10 : Ref sig .tc := ⟨.hbm, 23, rfl⟩
abbrev main_v11 : Ref sig .tc := ⟨.hbm, 24, rfl⟩
abbrev main_c_4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_call0_v0 : Ref sig .tc := ⟨.hbm, 32, rfl⟩
abbrev main_call0_v1 : Ref sig .tc := ⟨.hbm, 33, rfl⟩
abbrev main_v17 : Ref sig .tc := ⟨.hbm, 34, rfl⟩
abbrev main_v18 : Ref sig .tc := ⟨.hbm, 35, rfl⟩
abbrev main_cst_6 : Ref sig .tc := ⟨.hbm, 36, rfl⟩
abbrev main_call1_v0 : Ref sig .tc := ⟨.hbm, 37, rfl⟩
abbrev main_call1_v1 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_7 : Ref sig .tc := ⟨.hbm, 44, rfl⟩
abbrev main_v24 : Ref sig .tc := ⟨.hbm, 45, rfl⟩
abbrev main_v25 : Ref sig .tc := ⟨.hbm, 46, rfl⟩
abbrev main_c_8 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_9 : Ref sig .tc := ⟨.hbm, 53, rfl⟩
abbrev main_v31 : Ref sig .tc := ⟨.hbm, 54, rfl⟩
abbrev main_c_10 : Ref sig .tc := ⟨.hbm, 55, rfl⟩
abbrev main_v32 : Ref sig .tc := ⟨.hbm, 56, rfl⟩
abbrev main_v33 : Ref sig .tc := ⟨.hbm, 57, rfl⟩
abbrev main_c_11 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_call2_cst : Ref sig .tc := ⟨.hbm, 71, rfl⟩
abbrev main_call2_v0 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_c_12 : Ref sig .tc := ⟨.hbm, 78, rfl⟩
abbrev main_v51 : Ref sig .tc := ⟨.hbm, 79, rfl⟩
abbrev main_v52 : Ref sig .tc := ⟨.hbm, 80, rfl⟩
abbrev main_c_13 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_14 : Ref sig .tc := ⟨.hbm, 87, rfl⟩
abbrev main_v58 : Ref sig .tc := ⟨.hbm, 88, rfl⟩
abbrev main_c_15 : Ref sig .tc := ⟨.hbm, 89, rfl⟩
abbrev main_v59 : Ref sig .tc := ⟨.hbm, 90, rfl⟩
abbrev main_v60 : Ref sig .tc := ⟨.hbm, 91, rfl⟩
abbrev main_c_16 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_call3_cst : Ref sig .tc := ⟨.hbm, 105, rfl⟩
abbrev main_call3_v0 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Dense.lean ====
/-
  The dense half of one graph-convolution layer, at the extended reals, as one function of a row and a column:
  for node p and feature q,   max(∑ₖ (A[p,k] · nd[p]) · W[k,q] + b[q], 0) + f[p,q] · s,
  where A is the scatter-summed aggregate, nd the column of inverse square roots of the in-degrees, W and b the layer's
  weight and bias, f the residual features and s the residual's scale. The function is stated for any number of rows,
  so a block of 2000 rows and the whole array of 50000 are instances of one definition; a block of rows of the array
  is then the same function of the blocks, because every entry depends on its own row of A, nd and f only.
  The kernel body's stored value is that function of its loaded blocks: rounding to bf16 is the identity here, the
  matrix unit's product into a zero accumulator is the plain sum over the contracted axis, the column nd is repeated
  along the features and the bias along the rows.
-/
import proofs.«144915_j45947560132669_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.GCN

open Idealize.ShloMosaic Idealize.ShloMosaic.ValueIdx
open Cert.KernelIdeal Cert.KernelIdeal.Gen
open scoped BigOperators

/-- Entry (p, q) of the layer's dense half over `n` rows: the rectified affine image of row p of `A`, scaled by
    the row's `nd`, plus `s` times the residual entry. -/
def denseAt (s : EReal) {n : Nat} (A : (⟨2, ![n, 128]⟩ : Shape).Idx → EReal) (nd : (⟨2, ![n, 1]⟩ : Shape).Idx → EReal)
    (W : (⟨2, ![128, 128]⟩ : Shape).Idx → EReal) (b : (⟨1, ![128]⟩ : Shape).Idx → EReal)
    (f : (⟨2, ![n, 128]⟩ : Shape).Idx → EReal) (p : Fin n) (q : Fin 128) : EReal :=
  max ((∑ k : Fin 128, A (ix2 p k) * nd (ix2 p (0 : Fin 1)) * W (ix2 k q)) + b (ix1 q)) 0 + f (ix2 p q) * s

/-- The whole array of the dense half: `denseAt` at each index's coordinates. -/
def dense (s : EReal) {n : Nat} (A : (⟨2, ![n, 128]⟩ : Shape).Idx → EReal) (nd : (⟨2, ![n, 1]⟩ : Shape).Idx → EReal)
    (W : (⟨2, ![128, 128]⟩ : Shape).Idx → EReal) (b : (⟨1, ![128]⟩ : Shape).Idx → EReal)
    (f : (⟨2, ![n, 128]⟩ : Shape).Idx → EReal) : (⟨2, ![n, 128]⟩ : Shape).Idx → EReal :=
  fun i => denseAt s A nd W b f (i 0) (i 1)

/-! ## The product's operand indices: row p against column q, entry k of each -/

theorem lhs_row (i : S2000x128.Idx) (u : dot_S2000x128_S128x128_S2000x128_1_0_0_1_n_n.contr.Idx) :
    (dot_S2000x128_S128x128_S2000x128_1_0_0_1_n_n.lhsIdx i u 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_col (i : S2000x128.Idx) (u : dot_S2000x128_S128x128_S2000x128_1_0_0_1_n_n.contr.Idx) :
    (dot_S2000x128_S128x128_S2000x128_1_0_0_1_n_n.lhsIdx i u 1).val = (u ⟨0, by decide⟩).val :=
  dot_S2000x128_S128x128_S2000x128_1_0_0_1_n_n.lhsIdx_val_of_single rfl i u
theorem rhs_row (i : S2000x128.Idx) (u : dot_S2000x128_S128x128_S2000x128_1_0_0_1_n_n.contr.Idx) :
    (dot_S2000x128_S128x128_S2000x128_1_0_0_1_n_n.rhsIdx i u 0).val = (u ⟨0, by decide⟩).val :=
  dot_S2000x128_S128x128_S2000x128_1_0_0_1_n_n.rhsIdx_val_of_single rfl i u
theorem rhs_col (i : S2000x128.Idx) (u : dot_S2000x128_S128x128_S2000x128_1_0_0_1_n_n.contr.Idx) :
    (dot_S2000x128_S128x128_S2000x128_1_0_0_1_n_n.rhsIdx i u 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The block product into a zero accumulator, at (p, q): the sum over k of L[p,k] · R[k,q]. -/
theorem matmul_at {φ₁ φ₂ : FTy} (L : FVec Ideal S2000x128 φ₁) (R : FVec Ideal S128x128 φ₂) (p : Fin 2000) (q : Fin 128) :
    matmul dot_S2000x128_S128x128_S2000x128_1_0_0_1_n_n none L R (constant S2000x128 .f32 0x00000000#32) (ix2 p q)
      = ∑ k : Fin 128, L (ix2 p k) * R (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_row _ _
    | ⟨1, _⟩ => exact (lhs_col _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- A column [2000,1] repeated along 128 features reads, at (p, k), the column's entry p. -/
theorem col_bcast_at {α : Type} (v : S2000x1.Idx → α) (p : Fin 2000) (k : Fin 128) :
    broadcastTo S2000x128 v broadcasts_S2000x1_S2000x128 (ix2 p k) = v (ix2 p (0 : Fin 1)) := by
  refine broadcastTo_apply v broadcasts_S2000x1_S2000x128 (ix2 p k) (ix2 p (0 : Fin 1)) fun ax => ?_
  match ax with
  | ⟨0, _⟩ =>
    show p.val = if (2000 : Nat) = 1 then 0 else p.val
    rw [if_neg (by decide)]
  | ⟨1, _⟩ => rfl

/-- The bias [128] laid as one row and repeated along 2000 rows reads, at (p, q), the bias' entry q. -/
theorem bias_bcast_at {α : Type} (v : S128.Idx → α) (p : Fin 2000) (q : Fin 128) :
    broadcastTo S2000x128 (shapeCast S1x128 v shapeCasts_S128_S1x128) broadcasts_S1x128_S2000x128 (ix2 p q) = v (ix1 q) := by
  rw [broadcastTo_1b_ab_apply, shapeCast_a_1a_apply]

/-- The zero word denotes 0, -/
theorem zero_word : (FloatOps.ofBits (F := Ideal) .f32 0x00000000#32) = (0 : EReal) := Ideal.ofBits_zero_f32

/-! ## The two kernels' stored values -/

/-- Layer 1's body stores the dense half of its blocks, the residual scaled by the word of 1.0. -/
theorem pay0_apply (x0 : Vec Ideal S2000x128 .f32) (x1 : Vec Ideal S2000x1 .f32) (x2 : Vec Ideal S128x128 .f32)
    (x3 : Vec Ideal S128 .f32) (x4 : Vec Ideal S2000x128 .f32) (p : Fin 2000) (q : Fin 128) :
    k0_pay1 (F := Ideal) x0 x1 x2 x3 x4 (ix2 p q)
      = denseAt (Ideal.ofBits .f32 0x3F800000#32) x0 x1 x2 x3 x4 p q := by
  unfold k0_pay1 denseAt
  simp only [addf_apply, maximumf_apply, mulf_apply, broadcast_apply, shapeCast_self]
  rw [matmul_at, bias_bcast_at, zero_word]
  simp only [truncf_apply, mulf_apply, col_bcast_at]
  rfl

/-- Layer 2's body stores the dense half of its blocks, the residual scaled by the word of 2.0. -/
theorem pay1_apply (x0 : Vec Ideal S2000x128 .f32) (x1 : Vec Ideal S2000x1 .f32) (x2 : Vec Ideal S128x128 .f32)
    (x3 : Vec Ideal S128 .f32) (x4 : Vec Ideal S2000x128 .f32) (p : Fin 2000) (q : Fin 128) :
    k1_pay1 (F := Ideal) x0 x1 x2 x3 x4 (ix2 p q)
      = denseAt (Ideal.ofBits .f32 0x40000000#32) x0 x1 x2 x3 x4 p q := by
  unfold k1_pay1 denseAt
  simp only [addf_apply, maximumf_apply, mulf_apply, broadcast_apply, shapeCast_self]
  rw [matmul_at, bias_bcast_at, zero_word]
  simp only [truncf_apply, mulf_apply, col_bcast_at]
  rfl

end Cert.GCN

end
-- ==== Proof.Region.lean ====
/-
  What each pallas_call leaves in its result array, for ANY contents of the buffers at its entry: the dense half
  of a graph-convolution layer (Dense.lean) of the region's five input arrays. The grid has 25 points; point t reads
  rows 2000·t … 2000·t + 1999 of the aggregate, the degree column and the residual, the whole weight and bias, and
  writes the same rows of the result. The 25 blocks of rows tile the 50000 rows, so the array ends at one function.
-/
import proofs.«144915_j45947560132669_1_alg».proof.Proof.Gen.KernelIdeal.Frame
import proofs.«144915_j45947560132669_1_alg».proof.Proof.Dense

set_option maxRecDepth 16384

noncomputable section

namespace Cert.GCN

open Idealize.ShloMosaic Idealize.ShloMosaic.TcCoe Idealize.ShloMosaic.ValueIdx Idealize.SL.Sem
open Cert.KernelIdeal Cert.KernelIdeal.Gen
open Idealize.ShloMosaic.Pipeline (Dat)
open scoped BigOperators

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The residual's scale in layer 1: the word of 1.0. -/
abbrev scale1 : EReal := Ideal.ofBits .f32 0x3F800000#32
/-- The residual's scale in layer 2: the word of 2.0. -/
abbrev scale2 : EReal := Ideal.ofBits .f32 0x40000000#32

/-- An entry of the dense half over a block of rows is the entry of the dense half over the whole array at the
    block's row, when the block's rows are the array's: only row p of the aggregate, of the degree column and of the
    residual, and column q of the weight and the bias, are read. -/
theorem denseAt_rows (s : EReal) {n : Nat} (A : (⟨2, ![n, 128]⟩ : Shape).Idx → EReal) (nd : (⟨2, ![n, 1]⟩ : Shape).Idx → EReal)
    (W : (⟨2, ![128, 128]⟩ : Shape).Idx → EReal) (b : (⟨1, ![128]⟩ : Shape).Idx → EReal) (f : (⟨2, ![n, 128]⟩ : Shape).Idx → EReal)
    {n' : Nat} (x0 : (⟨2, ![n', 128]⟩ : Shape).Idx → EReal) (x1 : (⟨2, ![n', 1]⟩ : Shape).Idx → EReal)
    (x2 : (⟨2, ![128, 128]⟩ : Shape).Idx → EReal) (x3 : (⟨1, ![128]⟩ : Shape).Idx → EReal) (x4 : (⟨2, ![n', 128]⟩ : Shape).Idx → EReal)
    (P : Fin n) (p : Fin n') (q : Fin 128)
    (h0 : ∀ k : Fin 128, x0 (ix2 p k) = A (ix2 P k)) (h1 : x1 (ix2 p (0 : Fin 1)) = nd (ix2 P (0 : Fin 1)))
    (h2 : ∀ k : Fin 128, x2 (ix2 k q) = W (ix2 k q)) (h3 : x3 (ix1 q) = b (ix1 q)) (h4 : x4 (ix2 p q) = f (ix2 P q)) :
    denseAt s x0 x1 x2 x3 x4 p q = denseAt s A nd W b f P q := by
  unfold denseAt
  simp only [h0, h1, h2, h3, h4]

/-! ## Region 0 -/

/-- The printed index maps over the grid: the row-blocked windows (aggregate, degree column, residual, result) sit at
    block row t, the weight and the bias at their one block. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- What the result array of region 0 holds once every block is written back: the dense half of the region's
    input arrays as the region finds them. -/
abbrev G0 (c : Dev nD) : Buf (Elt Ideal) ((c : Thread nD τ).loc main_v40) :=
  dense (n := 50000) scale1 (V c main_v39) (V c main_v21) (V c main_arg3) (V c main_arg4) (V c main_arg0)

/-- Point t writes back rows 2000·t … 2000·t + 1999 of that array: each input block is the same rows of its array
    (the weight and the bias whole), and an entry of the dense half reads its own row only. -/
theorem flushed0 (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz2]
  simp only [View.ld_unit_zero (S := S2000x128) hz2, View.ld_unit_zero (S := S2000x1) hz2, View.ld_unit_zero (S := S128x128) hz2, View.ld_unit_zero (S := S128) hz1]
  funext j
  obtain ⟨p, q, rfl⟩ : ∃ (p : Fin 2000) (q : Fin 128), j = ix2 p q := ⟨j 0, j 1, eq_ix2 j⟩
  obtain ⟨e00, e01, e10, e11, e20, e21, e30, e40, e41, e50, e51⟩ := idx_facts0 t
  have ht : t.val < 25 := lt_of_lt_of_eq t.isLt N_0
  have hp : p.val < 2000 := p.isLt
  have hP : t.val * 2000 + p.val < 50000 := by omega
  have e5 : ((cfg0.win 5).blk t).view.emb (ix2 p q) = ix2 (⟨t.val * 2000 + p.val, hP⟩ : Fin 50000) q := by
    funext a; apply Fin.ext
    match a with
    | ⟨0, _⟩ => show win0_5.index t (0 : Fin 2) * 2000 + 1 * p.val = t.val * 2000 + p.val; rw [e50]; omega
    | ⟨1, _⟩ => show win0_5.index t (1 : Fin 2) * 128 + 1 * q.val = q.val; rw [e51]; omega
  rw [View.read_apply, e5]
  show k0_pay1 (iblk0 V c 0 t) (iblk0 V c 1 t) (iblk0 V c 2 t) (iblk0 V c 3 t) (iblk0 V c 4 t) (ix2 p q)
    = denseAt scale1 (V c main_v39) (V c main_v21) (V c main_arg3) (V c main_arg4) (V c main_arg0) (⟨t.val * 2000 + p.val, hP⟩ : Fin 50000) q
  refine (pay0_apply _ _ _ _ _ p q).trans ?_
  refine denseAt_rows scale1 _ _ _ _ _ _ _ _ _ _ _ p q (fun k => ?_) ?_ (fun k => ?_) ?_ ?_
  · unfold iblk0; rw [View.read_apply]
    show V c main_v39 _ = _
    refine congrArg (V c main_v39) ?_
    funext a; apply Fin.ext
    match a with
    | ⟨0, _⟩ => show win0_0.index t (0 : Fin 2) * 2000 + 1 * p.val = t.val * 2000 + p.val; rw [e00]; omega
    | ⟨1, _⟩ => show win0_0.index t (1 : Fin 2) * 128 + 1 * k.val = k.val; rw [e01]; omega
  · unfold iblk0; rw [View.read_apply]
    show V c main_v21 _ = _
    refine congrArg (V c main_v21) ?_
    funext a; apply Fin.ext
    match a with
    | ⟨0, _⟩ => show win0_1.index t (0 : Fin 2) * 2000 + 1 * p.val = t.val * 2000 + p.val; rw [e10]; omega
    | ⟨1, _⟩ => show win0_1.index t (1 : Fin 2) * 1 + 1 * 0 = 0; rw [e11]
  · unfold iblk0; rw [View.read_apply]
    show V c main_arg3 _ = _
    refine congrArg (V c main_arg3) ?_
    funext a; apply Fin.ext
    match a with
    | ⟨0, _⟩ => show win0_2.index t (0 : Fin 2) * 128 + 1 * k.val = k.val; rw [e20]; omega
    | ⟨1, _⟩ => show win0_2.index t (1 : Fin 2) * 128 + 1 * q.val = q.val; rw [e21]; omega
  · unfold iblk0; rw [View.read_apply]
    show V c main_arg4 _ = _
    refine congrArg (V c main_arg4) ?_
    funext a; apply Fin.ext
    match a with
    | ⟨0, _⟩ => show win0_3.index t (0 : Fin 1) * 128 + 1 * q.val = q.val; rw [e30]; omega
  · unfold iblk0; rw [View.read_apply]
    show V c main_arg0 _ = _
    refine congrArg (V c main_arg0) ?_
    funext a; apply Fin.ext
    match a with
    | ⟨0, _⟩ => show win0_4.index t (0 : Fin 2) * 2000 + 1 * p.val = t.val * 2000 + p.val; rw [e40]; omega
    | ⟨1, _⟩ => show win0_4.index t (1 : Fin 2) * 128 + 1 * q.val = q.val; rw [e41]; omega

/-- An index is in point t's block of the result iff each coordinate is in the block's range on its axis. -/
theorem mem_blk0 (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v40).slice (win0_5.rect t)).set ↔ _
  rw [View.set_slice_whole, Rect.mem_set_unit]
  exact Iff.rfl

/-- Every row belongs to the block of rows of point ⌊row / 2000⌋, and every point writes its block back. -/
theorem cover0 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 25 := N_0
  have htN : (i 0).val / 2000 < cfg0.N := by rw [hN]; omega
  obtain ⟨-, -, -, -, -, -, -, -, -, e50, e51⟩ := idx_facts0 ⟨(i 0).val / 2000, htN⟩
  refine ⟨⟨(i 0).val / 2000, htN⟩, flush0_5 _, ?_⟩
  rw [mem_blk0]
  intro a
  match a with
  | ⟨0, _⟩ =>
    show win0_5.index ⟨(i 0).val / 2000, htN⟩ (0 : Fin 2) * 2000 ≤ (i 0).val ∧ (i 0).val < win0_5.index ⟨(i 0).val / 2000, htN⟩ (0 : Fin 2) * 2000 + 2000
    rw [e50]; show (i 0).val / 2000 * 2000 ≤ (i 0).val ∧ (i 0).val < (i 0).val / 2000 * 2000 + 2000; omega
  | ⟨1, _⟩ =>
    show win0_5.index ⟨(i 0).val / 2000, htN⟩ (1 : Fin 2) * 128 ≤ (i 1).val ∧ (i 1).val < win0_5.index ⟨(i 0).val / 2000, htN⟩ (1 : Fin 2) * 128 + 128
    rw [e51]; omega

/-- Region 0's result array after the region. -/
theorem final0 (c : Dev nD) : (dat0 V c).arrAt 5 cfg0.N = G0 V c :=
  (dat0 V c).arrAt_eq_of_cover 5 (G0 V c) (fun t _ => flushed0 V c t) cover0

/-! ## Region 1 -/

/-- The printed index maps over the grid: the row-blocked windows (aggregate, degree column, residual, result) sit at
    block row t, the weight and the bias at their one block. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- What the result array of region 1 holds once every block is written back: the dense half of the region's
    input arrays as the region finds them. -/
abbrev G1 (c : Dev nD) : Buf (Elt Ideal) ((c : Thread nD τ).loc main_v59) :=
  dense (n := 50000) scale2 (V c main_v58) (V c main_v21) (V c main_arg5) (V c main_arg6) (V c main_arg0)

/-- Point t writes back rows 2000·t … 2000·t + 1999 of that array: each input block is the same rows of its array
    (the weight and the bias whole), and an entry of the dense half reads its own row only. -/
theorem flushed1 (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero hz2]
  simp only [View.ld_unit_zero (S := S2000x128) hz2, View.ld_unit_zero (S := S2000x1) hz2, View.ld_unit_zero (S := S128x128) hz2, View.ld_unit_zero (S := S128) hz1]
  funext j
  obtain ⟨p, q, rfl⟩ : ∃ (p : Fin 2000) (q : Fin 128), j = ix2 p q := ⟨j 0, j 1, eq_ix2 j⟩
  obtain ⟨e00, e01, e10, e11, e20, e21, e30, e40, e41, e50, e51⟩ := idx_facts1 t
  have ht : t.val < 25 := lt_of_lt_of_eq t.isLt N_1
  have hp : p.val < 2000 := p.isLt
  have hP : t.val * 2000 + p.val < 50000 := by omega
  have e5 : ((cfg1.win 5).blk t).view.emb (ix2 p q) = ix2 (⟨t.val * 2000 + p.val, hP⟩ : Fin 50000) q := by
    funext a; apply Fin.ext
    match a with
    | ⟨0, _⟩ => show win1_5.index t (0 : Fin 2) * 2000 + 1 * p.val = t.val * 2000 + p.val; rw [e50]; omega
    | ⟨1, _⟩ => show win1_5.index t (1 : Fin 2) * 128 + 1 * q.val = q.val; rw [e51]; omega
  rw [View.read_apply, e5]
  show k1_pay1 (iblk1 V c 0 t) (iblk1 V c 1 t) (iblk1 V c 2 t) (iblk1 V c 3 t) (iblk1 V c 4 t) (ix2 p q)
    = denseAt scale2 (V c main_v58) (V c main_v21) (V c main_arg5) (V c main_arg6) (V c main_arg0) (⟨t.val * 2000 + p.val, hP⟩ : Fin 50000) q
  refine (pay1_apply _ _ _ _ _ p q).trans ?_
  refine denseAt_rows scale2 _ _ _ _ _ _ _ _ _ _ _ p q (fun k => ?_) ?_ (fun k => ?_) ?_ ?_
  · unfold iblk1; rw [View.read_apply]
    show V c main_v58 _ = _
    refine congrArg (V c main_v58) ?_
    funext a; apply Fin.ext
    match a with
    | ⟨0, _⟩ => show win1_0.index t (0 : Fin 2) * 2000 + 1 * p.val = t.val * 2000 + p.val; rw [e00]; omega
    | ⟨1, _⟩ => show win1_0.index t (1 : Fin 2) * 128 + 1 * k.val = k.val; rw [e01]; omega
  · unfold iblk1; rw [View.read_apply]
    show V c main_v21 _ = _
    refine congrArg (V c main_v21) ?_
    funext a; apply Fin.ext
    match a with
    | ⟨0, _⟩ => show win1_1.index t (0 : Fin 2) * 2000 + 1 * p.val = t.val * 2000 + p.val; rw [e10]; omega
    | ⟨1, _⟩ => show win1_1.index t (1 : Fin 2) * 1 + 1 * 0 = 0; rw [e11]
  · unfold iblk1; rw [View.read_apply]
    show V c main_arg5 _ = _
    refine congrArg (V c main_arg5) ?_
    funext a; apply Fin.ext
    match a with
    | ⟨0, _⟩ => show win1_2.index t (0 : Fin 2) * 128 + 1 * k.val = k.val; rw [e20]; omega
    | ⟨1, _⟩ => show win1_2.index t (1 : Fin 2) * 128 + 1 * q.val = q.val; rw [e21]; omega
  · unfold iblk1; rw [View.read_apply]
    show V c main_arg6 _ = _
    refine congrArg (V c main_arg6) ?_
    funext a; apply Fin.ext
    match a with
    | ⟨0, _⟩ => show win1_3.index t (0 : Fin 1) * 128 + 1 * q.val = q.val; rw [e30]; omega
  · unfold iblk1; rw [View.read_apply]
    show V c main_arg0 _ = _
    refine congrArg (V c main_arg0) ?_
    funext a; apply Fin.ext
    match a with
    | ⟨0, _⟩ => show win1_4.index t (0 : Fin 2) * 2000 + 1 * p.val = t.val * 2000 + p.val; rw [e40]; omega
    | ⟨1, _⟩ => show win1_4.index t (1 : Fin 2) * 128 + 1 * q.val = q.val; rw [e41]; omega

/-- An index is in point t's block of the result iff each coordinate is in the block's range on its axis. -/
theorem mem_blk1 (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v59).slice (win1_5.rect t)).set ↔ _
  rw [View.set_slice_whole, Rect.mem_set_unit]
  exact Iff.rfl

/-- Every row belongs to the block of rows of point ⌊row / 2000⌋, and every point writes its block back. -/
theorem cover1 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 25 := N_1
  have htN : (i 0).val / 2000 < cfg1.N := by rw [hN]; omega
  obtain ⟨-, -, -, -, -, -, -, -, -, e50, e51⟩ := idx_facts1 ⟨(i 0).val / 2000, htN⟩
  refine ⟨⟨(i 0).val / 2000, htN⟩, flush1_5 _, ?_⟩
  rw [mem_blk1]
  intro a
  match a with
  | ⟨0, _⟩ =>
    show win1_5.index ⟨(i 0).val / 2000, htN⟩ (0 : Fin 2) * 2000 ≤ (i 0).val ∧ (i 0).val < win1_5.index ⟨(i 0).val / 2000, htN⟩ (0 : Fin 2) * 2000 + 2000
    rw [e50]; show (i 0).val / 2000 * 2000 ≤ (i 0).val ∧ (i 0).val < (i 0).val / 2000 * 2000 + 2000; omega
  | ⟨1, _⟩ =>
    show win1_5.index ⟨(i 0).val / 2000, htN⟩ (1 : Fin 2) * 128 ≤ (i 1).val ∧ (i 1).val < win1_5.index ⟨(i 0).val / 2000, htN⟩ (1 : Fin 2) * 128 + 128
    rw [e51]; omega

/-- Region 1's result array after the region. -/
theorem final1 (c : Dev nD) : (dat1 V c).arrAt 5 cfg1.N = G1 V c :=
  (dat1 V c).arrAt_eq_of_cover 5 (G1 V c) (fun t _ => flushed1 V c t) cover1

end Cert.GCN

end
-- ==== Proof.Consts.lean ====
/-
  The two float words the kernels multiply the residual by, as the extended reals they denote, and the one law of
  the extended reals that joins the two programs' second layer: doubling is adding a number to itself — also at the
  two infinities, where the extended reals' product is not distributive in general.
-/
import Idealize.ShloMosaic.PureOps.Ideal

noncomputable section

namespace Cert.GCN

open Idealize.ShloMosaic

/-- The word of 1.0 denotes 1. -/
theorem one_word : Ideal.ofBits .f32 0x3F800000#32 = 1 := by
  simp [Ideal.ofBits, Ideal.ieee, -EReal.coe_mul]; norm_num

/-- The word of 2.0 denotes 2. -/
theorem two_word : Ideal.ofBits .f32 0x40000000#32 = 2 := by
  simp [Ideal.ofBits, Ideal.ieee, -EReal.coe_mul]; norm_num
  rfl

/-- Twice an extended real is the number added to itself: at −∞ and +∞ both sides are that infinity. -/
theorem mul_two_eq_add_self (x : EReal) : x * 2 = x + x := by
  induction x using EReal.rec with
  | bot => rw [EReal.bot_mul_of_pos (by norm_num : (0 : EReal) < 2), EReal.bot_add]
  | coe r =>
    rw [show (2 : EReal) = ((2 : ℝ) : EReal) from rfl, ← EReal.coe_mul, ← EReal.coe_add, mul_two]
  | top => rw [EReal.top_mul_of_pos (by norm_num : (0 : EReal) < 2), EReal.top_add_top]

end Cert.GCN

end
-- ==== Proof.DenseRef.lean ====
/-
  The reference's two layers, read index by index, are the dense half (Dense.lean) of the reference's own aggregate
  and degree column. At the extended reals the host's matrix product is the plain sum over the contracted axis, its
  rectifier the maximum with 0, and its broadcasts repeat a column along the features and a bias along the rows; so
  layer 1's output relu((A·nd) W + b) + f is the dense half with the residual scaled by 1, and the function's result
  (relu((A'·nd) W' + b') + f) + f is the dense half with the residual scaled by 2, since doubling an extended real is
  adding it to itself and the sum is associative.
-/
import proofs.«144915_j45947560132669_1_alg».proof.Proof.Gen.ReferenceIdeal.Read
import proofs.«144915_j45947560132669_1_alg».proof.Proof.Dense
import proofs.«144915_j45947560132669_1_alg».proof.Proof.Consts

noncomputable section

namespace Cert.GCN

open Idealize.ShloMosaic Idealize.ShloMosaic.TcCoe Idealize.ShloMosaic.ValueIdx Idealize.SL.Sem
open Cert.ReferenceIdeal Cert.ReferenceIdeal.Read
open scoped BigOperators

/-- Layer 1 of the reference: the dense half of its aggregate (stage 38) and degree column (stage 39), the residual
    scaled by the word of 1.0, is its stage 47. -/
theorem layer1_ref (x0 : (⟨S50000x128, .f32⟩ : BufTy).Contents (Elt Ideal)) (x1 x2 : (⟨S600000, .i32⟩ : BufTy).Contents (Elt Ideal))
    (x3 : (⟨S128x128, .f32⟩ : BufTy).Contents (Elt Ideal)) (x4 : (⟨S128, .f32⟩ : BufTy).Contents (Elt Ideal)) :
    dense (n := 50000) (Ideal.ofBits .f32 0x3F800000#32) (val_main_v38 (F := Ideal) x0 x1 x2) (val_main_v39 (F := Ideal) x2) x3 x4 x0
      = val_main_v47 (F := Ideal) x0 x1 x2 x3 x4 := by
  funext i
  rw [val_main_v47_apply, val_main_v46_apply, val_main_v45_apply, val_main_v42_apply, val_main_v44_apply, val_main_v43_apply,
    val_main_call2_v0_apply, val_main_call2_cst_apply]
  simp only [val_main_v41_apply, val_main_v40_apply]
  unfold dense denseAt
  have e1 : ∀ k : Fin 128, lidx_main_v42 i k = ix2 (i 0) k := fun k => funext fun a => by
    match a with | ⟨0, _⟩ => rfl | ⟨1, _⟩ => rfl
  have e2 : ∀ k : Fin 128, ridx_main_v42 i k = ix2 k (i 1) := fun k => funext fun a => by
    match a with | ⟨0, _⟩ => rfl | ⟨1, _⟩ => rfl
  have e3 : ∀ k : Fin 128, idx_main_v40 (lidx_main_v42 i k) = ix2 (i 0) (0 : Fin 1) := fun k => funext fun a => by
    match a with | ⟨0, _⟩ => rfl | ⟨1, _⟩ => rfl
  have e4 : idx_main_v43 (idx_main_v44 i) = ix1 (i 1) := funext fun a => by
    match a with | ⟨0, _⟩ => rfl
  have e5 : x0 i = x0 (ix2 (i 0) (i 1)) := congrArg x0 (eq_ix2 i)
  simp only [e3]
  simp only [e1, e2, e4, Ideal.addf_def, Ideal.maximumf_def, Ideal.mulf_def, Ideal.ofBits_def, Ideal.ofBits_zero_f32]
  rw [← e5, one_word, mul_one]
  rfl

/-- Layer 2 of the reference and its last addition: the dense half of the second aggregate (stage 65) and the degree
    column (stage 66), the residual scaled by the word of 2.0, is the function's result, stage 75. -/
theorem layer2_ref (x0 : (⟨S50000x128, .f32⟩ : BufTy).Contents (Elt Ideal)) (x1 x2 : (⟨S600000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal)) :
    dense (n := 50000) (Ideal.ofBits .f32 0x40000000#32) (val_main_v65 (F := Ideal) x0 x1 x2 x3 x4) (val_main_v66 (F := Ideal) x2) x5 x6 x0
      = val_main_v75 (F := Ideal) x0 x1 x2 x3 x4 x5 x6 := by
  funext i
  rw [val_main_v75_apply, val_main_v74_apply, val_main_v73_apply, val_main_v72_apply, val_main_v69_apply, val_main_v71_apply, val_main_v70_apply,
    val_main_call3_v0_apply, val_main_call3_cst_apply]
  simp only [val_main_v68_apply, val_main_v67_apply]
  unfold dense denseAt
  have e1 : ∀ k : Fin 128, lidx_main_v69 i k = ix2 (i 0) k := fun k => funext fun a => by
    match a with | ⟨0, _⟩ => rfl | ⟨1, _⟩ => rfl
  have e2 : ∀ k : Fin 128, ridx_main_v69 i k = ix2 k (i 1) := fun k => funext fun a => by
    match a with | ⟨0, _⟩ => rfl | ⟨1, _⟩ => rfl
  have e3 : ∀ k : Fin 128, idx_main_v67 (lidx_main_v69 i k) = ix2 (i 0) (0 : Fin 1) := fun k => funext fun a => by
    match a with | ⟨0, _⟩ => rfl | ⟨1, _⟩ => rfl
  have e4 : idx_main_v70 (idx_main_v71 i) = ix1 (i 1) := funext fun a => by
    match a with | ⟨0, _⟩ => rfl
  have e5 : x0 i = x0 (ix2 (i 0) (i 1)) := congrArg x0 (eq_ix2 i)
  simp only [e3]
  simp only [e1, e2, e4, Ideal.addf_def, Ideal.maximumf_def, Ideal.mulf_def, Ideal.ofBits_def, Ideal.ofBits_zero_f32]
  rw [← e5, two_word, mul_two_eq_add_self, add_assoc]
  rfl

end Cert.GCN

end
-- ==== Proof.HostFolds.lean ====
import proofs.«144915_j45947560132669_1_alg».proof.Proof.Gen.KernelIdeal.Frame
import proofs.«144915_j45947560132669_1_alg».proof.Proof.Gen.ReferenceIdeal.Read
import Idealize.ShloMosaic.Lib.StableHlo.Run

/-! # The host stretches of the two-layer graph convolution, read as the reference's stage functions

Between the launch and the first kernel region the program runs five stretches of host operations: the two degree
counts (a scatter-add of ones over the source and over the target indices), their clamp below by one and reciprocal
square root, and the first layer's aggregate (scale the features by the source norm, gather along the source indices,
scatter-add along the target indices). Between the two regions a sixth stretch repeats the aggregate on the first
layer's output. The reference program runs the very same operations in the same order, so each buffer these
stretches leave is the reference's stage function of the launch arrays: the fold is evaluated one stretch at a
time and each result is the stage's body. -/

noncomputable section

namespace Cert.KernelIdeal.Folds

open Cert.KernelIdeal Cert.KernelIdeal.Gen Idealize.ShloMosaic Idealize.ShloMosaic.TcCoe Idealize.SL.Sem Idealize.ShloMosaic.StableHlo
open Cert.ReferenceIdeal.Read (val_main_cst_5 val_main_cst_6 val_main_v8 val_main_v16 val_main_v17 val_main_v18 val_main_v19 val_main_v20
  val_main_v38 val_main_v39 val_main_v47 val_main_v65 val_main_v66)

variable {F : FTy → Type} [FloatOps F]
variable (m : (ℓ : Loc nD τ sig) → Buf (Elt F) ℓ) (ρ : Dev nD → PrngReg)

/-! ## The launch memory's argument arrays -/

abbrev x0 (c : Dev nD) := m ((c.tc : Thread nD τ).loc main_arg0)
abbrev x1 (c : Dev nD) := m ((c.tc : Thread nD τ).loc main_arg1)
abbrev x2 (c : Dev nD) := m ((c.tc : Thread nD τ).loc main_arg2)
abbrev x3 (c : Dev nD) := m ((c.tc : Thread nD τ).loc main_arg3)
abbrev x4 (c : Dev nD) := m ((c.tc : Thread nD τ).loc main_arg4)
abbrev x5 (c : Dev nD) := m ((c.tc : Thread nD τ).loc main_arg5)
abbrev x6 (c : Dev nD) := m ((c.tc : Thread nD τ).loc main_arg6)

/-! ## A buffer no operation of a stretch writes -/

/-- A buffer that none of a stretch's operations writes keeps its contents through the stretch: each operation writes
    its one result buffer, a reference other than that buffer. -/
local macro "not_written" : tactic => `(tactic| (
  refine after_of_forall_not_mem _ _ (List.forall_iff_forall_mem.mp ?_)
  simp only [hostOps0, hostOps0_1, hostOps0_2, hostOps0_3, hostOps0_4, hostOps1, List.Forall, nullary_writes, unary_writes,
    binary_writes, ternary_writes, Finset.mem_singleton]
  repeat' apply And.intro
  all_goals exact devRef_ne_of_ne (by decide)))

/-- The argument arrays, as a list of references. -/
abbrev args : List (Ref sig .tc) := [main_arg0, main_arg1, main_arg2, main_arg3, main_arg4, main_arg5, main_arg6]

variable (V : Valuation τ sig (Elt F))

/-- No host operation writes an argument array: each of the six stretches leaves it as it was. -/
theorem keep0 (r : Ref sig .tc) (hr : r ∈ args) : after hostOps0 V (Proc.devRef .tc r) = V (Proc.devRef .tc r) := by
  simp only [args, List.mem_cons, List.not_mem_nil, or_false] at hr
  rcases hr with rfl | rfl | rfl | rfl | rfl | rfl | rfl <;> not_written
theorem keep0_1 (r : Ref sig .tc) (hr : r ∈ args) : after hostOps0_1 V (Proc.devRef .tc r) = V (Proc.devRef .tc r) := by
  simp only [args, List.mem_cons, List.not_mem_nil, or_false] at hr
  rcases hr with rfl | rfl | rfl | rfl | rfl | rfl | rfl <;> not_written
theorem keep0_2 (r : Ref sig .tc) (hr : r ∈ args) : after hostOps0_2 V (Proc.devRef .tc r) = V (Proc.devRef .tc r) := by
  simp only [args, List.mem_cons, List.not_mem_nil, or_false] at hr
  rcases hr with rfl | rfl | rfl | rfl | rfl | rfl | rfl <;> not_written
theorem keep0_3 (r : Ref sig .tc) (hr : r ∈ args) : after hostOps0_3 V (Proc.devRef .tc r) = V (Proc.devRef .tc r) := by
  simp only [args, List.mem_cons, List.not_mem_nil, or_false] at hr
  rcases hr with rfl | rfl | rfl | rfl | rfl | rfl | rfl <;> not_written
theorem keep0_4 (r : Ref sig .tc) (hr : r ∈ args) : after hostOps0_4 V (Proc.devRef .tc r) = V (Proc.devRef .tc r) := by
  simp only [args, List.mem_cons, List.not_mem_nil, or_false] at hr
  rcases hr with rfl | rfl | rfl | rfl | rfl | rfl | rfl <;> not_written
theorem keep1 (r : Ref sig .tc) (hr : r ∈ args) : after hostOps1 V (Proc.devRef .tc r) = V (Proc.devRef .tc r) := by
  simp only [args, List.mem_cons, List.not_mem_nil, or_false] at hr
  rcases hr with rfl | rfl | rfl | rfl | rfl | rfl | rfl <;> not_written

/-! ## The arguments through the first five stretches -/

theorem W1_arg (c : Dev nD) (r : Ref sig .tc) (hr : r ∈ args) :
    W1 m ρ c (Proc.devRef .tc r) = W0 m ρ c (Proc.devRef .tc r) := keep0 _ r hr
theorem W2_arg (c : Dev nD) (r : Ref sig .tc) (hr : r ∈ args) :
    W2 m ρ c (Proc.devRef .tc r) = W0 m ρ c (Proc.devRef .tc r) := (keep0_1 _ r hr).trans (W1_arg m ρ c r hr)
theorem W3_arg (c : Dev nD) (r : Ref sig .tc) (hr : r ∈ args) :
    W3 m ρ c (Proc.devRef .tc r) = W0 m ρ c (Proc.devRef .tc r) := (keep0_2 _ r hr).trans (W2_arg m ρ c r hr)
theorem W4_arg (c : Dev nD) (r : Ref sig .tc) (hr : r ∈ args) :
    W4 m ρ c (Proc.devRef .tc r) = W0 m ρ c (Proc.devRef .tc r) := (keep0_3 _ r hr).trans (W3_arg m ρ c r hr)
theorem W5_arg (c : Dev nD) (r : Ref sig .tc) (hr : r ∈ args) :
    W5 m ρ c (Proc.devRef .tc r) = W0 m ρ c (Proc.devRef .tc r) := (keep0_4 _ r hr).trans (W4_arg m ρ c r hr)

theorem W4_arg0 (c : Dev nD) : W4 m ρ c (Proc.devRef .tc main_arg0) = x0 m c := (W4_arg m ρ c main_arg0 (by decide)).trans rfl
theorem W4_arg1 (c : Dev nD) : W4 m ρ c (Proc.devRef .tc main_arg1) = x1 m c := (W4_arg m ρ c main_arg1 (by decide)).trans rfl
theorem W4_arg2 (c : Dev nD) : W4 m ρ c (Proc.devRef .tc main_arg2) = x2 m c := (W4_arg m ρ c main_arg2 (by decide)).trans rfl

theorem W5_arg0 (c : Dev nD) : W5 m ρ c (Proc.devRef .tc main_arg0) = m ((c.tc : Thread nD τ).loc main_arg0) :=
  (W5_arg m ρ c main_arg0 (by decide)).trans rfl
theorem W5_arg1 (c : Dev nD) : W5 m ρ c (Proc.devRef .tc main_arg1) = m ((c.tc : Thread nD τ).loc main_arg1) :=
  (W5_arg m ρ c main_arg1 (by decide)).trans rfl
theorem W5_arg2 (c : Dev nD) : W5 m ρ c (Proc.devRef .tc main_arg2) = m ((c.tc : Thread nD τ).loc main_arg2) :=
  (W5_arg m ρ c main_arg2 (by decide)).trans rfl
theorem W5_arg3 (c : Dev nD) : W5 m ρ c (Proc.devRef .tc main_arg3) = m ((c.tc : Thread nD τ).loc main_arg3) :=
  (W5_arg m ρ c main_arg3 (by decide)).trans rfl
theorem W5_arg4 (c : Dev nD) : W5 m ρ c (Proc.devRef .tc main_arg4) = m ((c.tc : Thread nD τ).loc main_arg4) :=
  (W5_arg m ρ c main_arg4 (by decide)).trans rfl
theorem W5_arg5 (c : Dev nD) : W5 m ρ c (Proc.devRef .tc main_arg5) = m ((c.tc : Thread nD τ).loc main_arg5) :=
  (W5_arg m ρ c main_arg5 (by decide)).trans rfl
theorem W5_arg6 (c : Dev nD) : W5 m ρ c (Proc.devRef .tc main_arg6) = m ((c.tc : Thread nD τ).loc main_arg6) :=
  (W5_arg m ρ c main_arg6 (by decide)).trans rfl

/-! ## The degree counts (first stretch) -/

/-- The first stretch scatter-adds a vector of ones at the (wrapped) source indices into zeros: the reference's
    out-degree count. -/
theorem W1_v8 (c : Dev nD) : W1 m ρ c (Proc.devRef .tc main_v8) = val_main_v8 (x1 m c) := by
  show after hostOps0 (W0 m ρ c) _ = _
  generalize hV : W0 m ρ c = V0
  after_results
  subst hV
  rfl
set_option maxHeartbeats 4000000 in
/-- The same over the target indices: the in-degree count. -/
theorem W1_v16 (c : Dev nD) : W1 m ρ c (Proc.devRef .tc main_v16) = val_main_v16 (x2 m c) := by
  show after hostOps0 (W0 m ρ c) _ = _
  generalize hV : W0 m ρ c = V0
  after_results_simp
  subst hV
  rfl
set_option maxHeartbeats 4000000 in
/-- The stretch's last operation is the constant one the clamp reads. -/
theorem W1_cst5 (c : Dev nD) : W1 m ρ c (Proc.devRef .tc main_cst_5) = (val_main_cst_5 (F := F)) := by
  show after hostOps0 (W0 m ρ c) _ = _
  generalize hV : W0 m ρ c = V0
  after_results
  rfl

/-! ## The norms (stretches two to four) -/

/-- The clamp: the maximum of a broadcast one and the out-degree count. -/
theorem W2_v17 (c : Dev nD) : W2 m ρ c (Proc.devRef .tc main_v17) = val_main_v17 (x1 m c) := by
  show after hostOps0_1 (W1 m ρ c) _ = _
  generalize hV : W1 m ρ c = V1
  after_results
  subst hV
  rw [W1_cst5, W1_v8]; rfl
/-- The clamp leaves the in-degree count. -/
theorem W2_v16 (c : Dev nD) : W2 m ρ c (Proc.devRef .tc main_v16) = val_main_v16 (x2 m c) := by
  show after hostOps0_1 (W1 m ρ c) _ = _
  generalize hV : W1 m ρ c = V1
  after_results
  subst hV
  exact W1_v16 m ρ c
/-- The reciprocal square root of the clamped out-degree: the source norm. -/
theorem W3_v18 (c : Dev nD) : W3 m ρ c (Proc.devRef .tc main_v18) = val_main_v18 (x1 m c) := by
  show after hostOps0_2 (W2 m ρ c) _ = _
  generalize hV : W2 m ρ c = V2
  after_results
  subst hV
  rw [W2_v17]; rfl
theorem W3_v16 (c : Dev nD) : W3 m ρ c (Proc.devRef .tc main_v16) = val_main_v16 (x2 m c) := by
  show after hostOps0_2 (W2 m ρ c) _ = _
  generalize hV : W2 m ρ c = V2
  after_results
  subst hV
  exact W2_v16 m ρ c
/-- The third stretch ends with the constant one the second clamp reads. -/
theorem W3_cst6 (c : Dev nD) : W3 m ρ c (Proc.devRef .tc main_cst_6) = (val_main_cst_6 (F := F)) := by
  show after hostOps0_2 (W2 m ρ c) _ = _
  generalize hV : W2 m ρ c = V2
  after_results
  rfl
/-- The second clamp, of the in-degree count. -/
theorem W4_v19 (c : Dev nD) : W4 m ρ c (Proc.devRef .tc main_v19) = val_main_v19 (x2 m c) := by
  show after hostOps0_3 (W3 m ρ c) _ = _
  generalize hV : W3 m ρ c = V3
  after_results
  subst hV
  rw [W3_cst6, W3_v16]; rfl
/-- The second clamp leaves the source norm. -/
theorem W4_v18 (c : Dev nD) : W4 m ρ c (Proc.devRef .tc main_v18) = val_main_v18 (x1 m c) := by
  show after hostOps0_3 (W3 m ρ c) _ = _
  generalize hV : W3 m ρ c = V3
  after_results
  subst hV
  exact W3_v18 m ρ c

/-! ## The first layer's aggregate (fifth stretch) -/

/-- The fifth stretch does not write the source norm. -/
theorem W5_v18 (c : Dev nD) : W5 m ρ c (Proc.devRef .tc main_v18) = val_main_v18 (x1 m c) :=
  (by not_written : W5 m ρ c (Proc.devRef .tc main_v18) = W4 m ρ c (Proc.devRef .tc main_v18)).trans (W4_v18 m ρ c)

/-- The target norm as a column: the reciprocal square root of the clamped in-degree, broadcast to one column. -/
theorem W5_v21 (c : Dev nD) : W5 m ρ c (Proc.devRef .tc main_v21) = val_main_v39 (x2 m c) := by
  show after hostOps0_4 (W4 m ρ c) _ = _
  generalize hV : W4 m ρ c = V4
  after_results
  subst hV
  rw [W4_v19]; rfl

set_option maxHeartbeats 4000000 in
/-- The aggregate: the features scaled by the source norm, gathered along the (wrapped) source indices and
    scatter-added along the (wrapped) target indices into zeros. -/
theorem W5_v39 (c : Dev nD) : W5 m ρ c (Proc.devRef .tc main_v39) = val_main_v38 (x0 m c) (x1 m c) (x2 m c) := by
  show after hostOps0_4 (W4 m ρ c) _ = _
  generalize hV : W4 m ρ c = V4
  after_results_simp
  subst hV
  rw [W4_v18, W4_arg0, W4_arg1, W4_arg2]; rfl

/-! ## Across the first region and the sixth stretch -/

/-- The first region's arrays are the aggregate, the target norm's column, the first layer's weight and bias, the
    features and its output; the source norm and the two index arrays are none of them, so the region leaves them. -/
theorem W6_v18 (c : Dev nD) : W6 m ρ c (Proc.devRef .tc main_v18) = val_main_v18 (x1 m c) :=
  (W6_of_ne m ρ c main_v18 (by decide)).trans (W5_v18 m ρ c)
theorem W6_arg1 (c : Dev nD) : W6 m ρ c (Proc.devRef .tc main_arg1) = x1 m c :=
  (W6_of_ne m ρ c main_arg1 (by decide)).trans (W5_arg1 m ρ c)
theorem W6_arg2 (c : Dev nD) : W6 m ρ c (Proc.devRef .tc main_arg2) = x2 m c :=
  (W6_of_ne m ρ c main_arg2 (by decide)).trans (W5_arg2 m ρ c)

set_option maxHeartbeats 4000000 in
/-- The second layer's aggregate: the sixth stretch runs the fifth's operations again on the first layer's output
    (scale by the source norm, gather along the source indices, scatter-add along the target indices). -/
theorem W7_v58 (c : Dev nD)
    (h40 : W6 m ρ c (Proc.devRef .tc main_v40) = val_main_v47 (x0 m c) (x1 m c) (x2 m c) (x3 m c) (x4 m c)) :
    W7 m ρ c (Proc.devRef .tc main_v58) = val_main_v65 (x0 m c) (x1 m c) (x2 m c) (x3 m c) (x4 m c) := by
  show after hostOps1 (W6 m ρ c) _ = _
  generalize hV : W6 m ρ c = V6 at h40 ⊢
  after_results_simp
  subst hV
  rw [h40, W6_v18, W6_arg1, W6_arg2]; rfl

/-- The target norm's column is the first region's second input window: the region hands it back as entered, and the
    sixth stretch does not write it. The reference computes the same column twice, once for each layer. -/
theorem W7_v21 (c : Dev nD) : W7 m ρ c (Proc.devRef .tc main_v21) = val_main_v66 (x2 m c) :=
  calc W7 m ρ c (Proc.devRef .tc main_v21)
    _ = W6 m ρ c (Proc.devRef .tc main_v21) := by not_written
    _ = W5 m ρ c (Proc.devRef .tc main_v21) :=
          (W6_arr m ρ c 1).trans (((dat0 (V5 m ρ) c).arrAt_in 1 rfl _).trans (A_eq0 (V5 m ρ) c 1))
    _ = val_main_v39 (x2 m c) := W5_v21 m ρ c
    _ = val_main_v66 (x2 m c) := rfl

/-- The features are the first region's fifth input window. -/
theorem W7_arg0 (c : Dev nD) : W7 m ρ c (Proc.devRef .tc main_arg0) = m ((c.tc : Thread nD τ).loc main_arg0) :=
  calc W7 m ρ c (Proc.devRef .tc main_arg0)
    _ = W6 m ρ c (Proc.devRef .tc main_arg0) := keep1 _ main_arg0 (by decide)
    _ = W5 m ρ c (Proc.devRef .tc main_arg0) :=
          (W6_arr m ρ c 4).trans (((dat0 (V5 m ρ) c).arrAt_in 4 rfl _).trans (A_eq0 (V5 m ρ) c 4))
    _ = m ((c.tc : Thread nD τ).loc main_arg0) := W5_arg0 m ρ c
/-- The second layer's weight and bias are none of the first region's arrays. -/
theorem W7_arg5 (c : Dev nD) : W7 m ρ c (Proc.devRef .tc main_arg5) = m ((c.tc : Thread nD τ).loc main_arg5) :=
  calc W7 m ρ c (Proc.devRef .tc main_arg5)
    _ = W6 m ρ c (Proc.devRef .tc main_arg5) := keep1 _ main_arg5 (by decide)
    _ = W5 m ρ c (Proc.devRef .tc main_arg5) := W6_of_ne m ρ c main_arg5 (by decide)
    _ = m ((c.tc : Thread nD τ).loc main_arg5) := W5_arg5 m ρ c
theorem W7_arg6 (c : Dev nD) : W7 m ρ c (Proc.devRef .tc main_arg6) = m ((c.tc : Thread nD τ).loc main_arg6) :=
  calc W7 m ρ c (Proc.devRef .tc main_arg6)
    _ = W6 m ρ c (Proc.devRef .tc main_arg6) := keep1 _ main_arg6 (by decide)
    _ = W5 m ρ c (Proc.devRef .tc main_arg6) := W6_of_ne m ρ c main_arg6 (by decide)
    _ = m ((c.tc : Thread nD τ).loc main_arg6) := W5_arg6 m ρ c

end Cert.KernelIdeal.Folds

end
-- ==== Proof.KernelValue.lean ====
/-
  The kernel program's result, as the reference's stage function of the launch arrays. The run is two pallas_calls
  among host stretches. The first call's result array is the dense half of layer 1 applied to the aggregate, the
  target-degree column, the first weight and bias and the features as the host stretches leave them; those are the
  reference's stages 38 and 39 and the launch arrays, so the array is the reference's layer-1 output (stage 47). The
  sixth host stretch aggregates that output again (stage 65); the second call's result is the dense half of layer 2
  of it, with the residual doubled, which is the reference's result (stage 75).
-/
import proofs.«144915_j45947560132669_1_alg».proof.Proof.Region
import proofs.«144915_j45947560132669_1_alg».proof.Proof.DenseRef
import proofs.«144915_j45947560132669_1_alg».proof.Proof.HostFolds

set_option maxRecDepth 16384

noncomputable section

namespace Cert.GCN

open Idealize.ShloMosaic Idealize.ShloMosaic.TcCoe Idealize.SL.Sem
open Cert.KernelIdeal Cert.KernelIdeal.Gen Cert.KernelIdeal.Folds

variable (m : (ℓ : Loc nD τ sig) → Buf (Elt Ideal) ℓ) (ρ : Dev nD → PrngReg)

/-- After the first pallas_call its result array holds the reference's layer-1 output of the launch arrays. -/
theorem layer1_out (c : Dev nD) :
    W6 m ρ c (Proc.devRef .tc main_v40)
      = Cert.ReferenceIdeal.Read.val_main_v47 (x0 m c) (x1 m c) (x2 m c) (x3 m c) (x4 m c) := by
  refine (W6_arr m ρ c 5).trans ?_
  rw [final0 (V5 m ρ) c]
  show dense (n := 50000) scale1 (W5 m ρ c (Proc.devRef .tc main_v39)) (W5 m ρ c (Proc.devRef .tc main_v21))
    (W5 m ρ c (Proc.devRef .tc main_arg3)) (W5 m ρ c (Proc.devRef .tc main_arg4)) (W5 m ρ c (Proc.devRef .tc main_arg0)) = _
  rw [W5_v39, W5_v21, W5_arg3, W5_arg4, W5_arg0]
  exact layer1_ref _ _ _ _ _

/-- After the second pallas_call the program's result array holds the reference's result of the launch arrays. -/
theorem result_out (c : Dev nD) :
    W8 m ρ c (Proc.devRef .tc main_v59)
      = Cert.ReferenceIdeal.Read.val_main_v75 (x0 m c) (x1 m c) (x2 m c) (x3 m c) (x4 m c) (x5 m c) (x6 m c) := by
  refine (W8_arr m ρ c 5).trans ?_
  rw [final1 (V7 m ρ) c]
  show dense (n := 50000) scale2 (W7 m ρ c (Proc.devRef .tc main_v58)) (W7 m ρ c (Proc.devRef .tc main_v21))
    (W7 m ρ c (Proc.devRef .tc main_arg5)) (W7 m ρ c (Proc.devRef .tc main_arg6)) (W7 m ρ c (Proc.devRef .tc main_arg0)) = _
  rw [W7_v58 m ρ c (layer1_out m ρ c), W7_v21, W7_arg5, W7_arg6, W7_arg0]
  exact layer2_ref _ _ _ _ _ _ _

end Cert.GCN

end
-- ==== Proof.lean ====
/-
  Two-layer graph convolution (degree-normalised gather and scatter-add on the host, the dense half of each layer
  in a pallas_call over blocks of 2000 nodes) against its jnp reference, over the extended reals.

  Both programs run the same host operations up to each layer's dense half; there the kernel multiplies the
  aggregate by the target-degree column, rounds to bf16 (the identity here), takes the matrix unit's product with
  the weight, adds the bias, rectifies and adds the residual times 1.0 (layer 1) or 2.0 (layer 2), while the
  reference takes the host's product and adds the residual once after layer 1 and twice after layer 2. Index by
  index both are max(∑ₖ (A[p,k]·nd[p])·W[k,q] + b[q], 0) plus the residual once, resp. twice: x·1 = x, and x·2 = x + x
  for every extended real, the infinities included, so no finiteness of the inputs is used.

  The frames of the two kernel programs are the generated ones; the reference's frame is its generated run with the
  result dropped; the idealization rewrote nothing.
-/
import proofs.«144915_j45947560132669_1_alg».proof.Defs
import proofs.«144915_j45947560132669_1_alg».proof.Proof.Gen.Kernel
import proofs.«144915_j45947560132669_1_alg».proof.Proof.Gen.Kernel.Frame
import proofs.«144915_j45947560132669_1_alg».proof.Proof.Gen.KernelIdeal
import proofs.«144915_j45947560132669_1_alg».proof.Proof.Gen.KernelIdeal.Frame
import proofs.«144915_j45947560132669_1_alg».proof.Proof.Gen.ReferenceIdeal
import proofs.«144915_j45947560132669_1_alg».proof.Proof.Gen.ReferenceIdeal.Run
import proofs.«144915_j45947560132669_1_alg».proof.Proof.Gen.ReferenceIdeal.Read
import proofs.«144915_j45947560132669_1_alg».proof.Proof.Gen.Pre_finite_inputs
import proofs.«144915_j45947560132669_1_alg».proof.Proof.KernelRun
import proofs.«144915_j45947560132669_1_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on the seven arguments both programs end with the reference's result function of
    those arguments: the kernel program by its two regions' values, the reference by its own run. -/
theorem algebraic : Cert.algebraic_KernelIdeal_ReferenceIdeal := by
  intro m ρ m' ρ' _ hagree
  refine ⟨fun c => Cert.KernelIdeal.Gen.W8 m ρ c (Proc.devRef .tc Cert.KernelIdeal.main_v59),
    Cert.KernelIdeal.Named.run (F := Ideal) m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Gen.W8 m ρ c (Proc.devRef .tc Cert.KernelIdeal.main_v59)
  rw [Cert.ReferenceIdeal.Read.val_main_v75_eq, Cert.GCN.result_out m ρ c]
  obtain ⟨h0, h1, h2, h3, h4, h5, h6⟩ := hagree c
  rw [h0, h1, h2, h3, h4, h5, h6]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
